-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S1024x2048 : Shape := ⟨2, ![1024, 2048]⟩
abbrev S2048x1024 : Shape := ⟨2, ![2048, 1024]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4x4096x2048 .f32) (main_arg1 : FVec F S1024x2048 .f32) (main_arg2 : FVec F S2048x1024 .f32) (main_arg3 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4x4096x2048 : Shape := ⟨3, ![4, 4096, 2048]⟩
abbrev S1024x2048 : Shape := ⟨2, ![1024, 2048]⟩
abbrev S2048x1024 : Shape := ⟨2, ![2048, 1024]⟩
abbrev S2048 : Shape := ⟨1, ![2048]⟩
abbrev S1x2048 : Shape := ⟨2, ![1, 2048]⟩
abbrev S1x256x2048 : Shape := ⟨3, ![1, 256, 2048]⟩
abbrev S256x2048 : Shape := ⟨2, ![256, 2048]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S1024x2048, .f32⟩
  | .hbm, ⟨2, _⟩ => ⟨S2048x1024, .f32⟩
  | .hbm, ⟨3, _⟩ => ⟨S2048, .f32⟩
  | .hbm, ⟨4, _⟩ => ⟨S1x2048, .f32⟩
  | .hbm, ⟨5, _⟩ => ⟨S4x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1024x2048, .f32⟩
  | .local _ .vmem, ⟨3, _⟩ => ⟨S2048x1024, .f32⟩
  | .local _ .vmem, ⟨4, _⟩ => ⟨S1x2048, .f32⟩
  | .local _ .vmem, ⟨5, _⟩ => ⟨S1x256x2048, .f32⟩
  | .local _ .vmem, ⟨6, _⟩ => ⟨S1x256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2048_S1x2048 : S2048.ShapeCasts S1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S256x2048_S1x256x2048 : S256x2048.ShapeCasts S1x256x2048
  dot_S256x2048_S1024x2048_S256x1024_1_1_0_0_n_n_wf : DotDims.WF S256x2048 S1024x2048 S256x1024 [1] [1] [0] [0] [] []
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x4096x2048.size a
  hwx0_0 : ∀ i : grid0.Coords, EltTy.bits .f32 = 32 ∨ (Rect.block (s := S4x4096x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .f32 = 32 ∨ (Rect.block (s := S2048x1024) S2048x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S4x4096x2048.size a
  hwx0_4 : ∀ i : grid0.Coords, EltTy.bits .f32 = 32 ∨ (Rect.block (s := S4x4096x2048) S1x256x2048.size (cc0_transform_4 i) (hinb0_4 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S1024x2048 : Shape := ⟨2, ![1024, 2048]⟩
abbrev S2048x1024 : Shape := ⟨2, ![2048, 1024]⟩
abbrev S2048 : Shape := ⟨1, ![2048]⟩
abbrev S4x4096x1024 : Shape := ⟨3, ![4, 4096, 1024]⟩
abbrev S1x1x2048 : Shape := ⟨3, ![1, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1024x2048, .f32⟩
  | .hbm, ⟨2, _⟩ => ⟨S2048x1024, .f32⟩
  | .hbm, ⟨3, _⟩ => ⟨S2048, .f32⟩
  | .hbm, ⟨4, _⟩ => ⟨S4x4096x1024, .f32⟩
  | .hbm, ⟨5, _⟩ => ⟨S4x4096x1024, .f32⟩
  | .hbm, ⟨6, _⟩ => ⟨S4x4096x2048, .f32⟩
  | .hbm, ⟨7, _⟩ => ⟨S1x1x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S1024x2048_S4x4096x1024_2_1_01_0_n_n_wf : DotDims.WF S4x4096x2048 S1024x2048 S4x4096x1024 [2] [1] [0, 1] [0] [] []
  dot_S4x4096x1024_S2048x1024_S4x4096x2048_2_1_01_0_n_n_wf : DotDims.WF S4x4096x1024 S2048x1024 S4x4096x2048 [2] [1] [0, 1] [0] [] []

variable [Facts₀]

def dot_S4x4096x2048_S1024x2048_S4x4096x1024_2_1_01_0_n_n : DotDims S4x4096x2048 S1024x2048 S4x4096x1024 where
  lhsContracting := [2]
  rhsContracting := [1]
  lhsNonContracting := [0, 1]
  rhsNonContracting := [0]
  lhsBatch := []
  rhsBatch := []
  wf := dot_S4x4096x2048_S1024x2048_S4x4096x1024_2_1_01_0_n_n_wf
def dot_S4x4096x1024_S2048x1024_S4x4096x2048_2_1_01_0_n_n : DotDims S4x4096x1024 S2048x1024 S4x4096x2048 where
  lhsContracting := [2]
  rhsContracting := [1]
  lhsNonContracting := [0, 1]
  rhsNonContracting := [0]
  lhsBatch := []
  rhsBatch := []
  wf := dot_S4x4096x1024_S2048x1024_S4x4096x2048_2_1_01_0_n_n_wf

class Facts : Prop extends Facts₀ where

variable [Facts]
-- ==== Proof.Mix.lean ====
/-
  The function both programs compute.

  For x : [4, 4096, 2048], B : [1024, 2048], C : [2048, 1024] and D : [2048], the result at (b, s, d) is

      ∑ n < 1024, tanh (∑ q < 2048, x (b, s, q) · B (n, q)) · C (d, n)  +  D (d) · x (b, s, d)

  on the extended reals: the row x (b, s, ·) is projected onto the 1024 rows of B, each projection is squashed by tanh,
  the squashed vector is projected onto the 2048 rows of C, and a per-channel multiple of the row itself is added.
  A result row depends on its own row of x only, so the result can be computed any number of rows at a time.
-/
import Idealize.ShloMosaic.PureOps.Ideal
import Idealize.ShloMosaic.Lib.ValueIdx

noncomputable section

open scoped BigOperators

namespace Cert.Mix

open Idealize.ShloMosaic Idealize.ShloMosaic.ValueIdx

/-- The squashed projection of row (b, s) of x onto row n of B. -/
def hidden (x : FVec Ideal ⟨3, ![4, 4096, 2048]⟩ .f32) (B : FVec Ideal ⟨2, ![1024, 2048]⟩ .f32)
    (b : Fin 4) (s : Fin 4096) (n : Fin 1024) : EReal :=
  Ideal.tanh (∑ q : Fin 2048, x (ix3 b s q) * B (ix2 n q))

/-- The whole result: the squashed projections projected onto the rows of C, plus D times the input, entry by entry. -/
def mix (x : FVec Ideal ⟨3, ![4, 4096, 2048]⟩ .f32) (B : FVec Ideal ⟨2, ![1024, 2048]⟩ .f32)
    (C : FVec Ideal ⟨2, ![2048, 1024]⟩ .f32) (D : FVec Ideal ⟨1, ![2048]⟩ .f32) : FVec Ideal ⟨3, ![4, 4096, 2048]⟩ .f32 :=
  fun i => (∑ n : Fin 1024, hidden x B (i 0) (i 1) n * C (ix2 (i 2) n)) + D (ix1 (i 2)) * x i

/-- The same expression written over a block of 256 rows of x (with a unit leading axis), whole copies of B and C and
    D as a one-row matrix is the result at the array entry E, once each entry the expression reads is known to be the
    array entry it stands for: the block's row r is the array's row (E 0, E 1), its column e the array's column E 2. -/
theorem mix_of_block (x : FVec Ideal ⟨3, ![4, 4096, 2048]⟩ .f32) (B : FVec Ideal ⟨2, ![1024, 2048]⟩ .f32)
    (C : FVec Ideal ⟨2, ![2048, 1024]⟩ .f32) (D : FVec Ideal ⟨1, ![2048]⟩ .f32)
    (x0 : FVec Ideal ⟨3, ![1, 256, 2048]⟩ .f32) (b0 : FVec Ideal ⟨2, ![1024, 2048]⟩ .f32)
    (c0 : FVec Ideal ⟨2, ![2048, 1024]⟩ .f32) (d0 : FVec Ideal ⟨2, ![1, 2048]⟩ .f32)
    (E : (⟨3, ![4, 4096, 2048]⟩ : Shape).Idx) (r : Fin 256) (e : Fin 2048)
    (hrow : ∀ q : Fin 2048, x0 (ix3 (0 : Fin 1) r q) = x (ix3 (E 0) (E 1) q))
    (hB : ∀ (n : Fin 1024) (q : Fin 2048), b0 (ix2 n q) = B (ix2 n q))
    (hC : ∀ n : Fin 1024, c0 (ix2 e n) = C (ix2 (E 2) n))
    (hD : d0 (ix2 (0 : Fin 1) e) = D (ix1 (E 2)))
    (hself : x0 (ix3 (0 : Fin 1) r e) = x E) :
    (∑ n : Fin 1024, Ideal.tanh (∑ q : Fin 2048, x0 (ix3 (0 : Fin 1) r q) * b0 (ix2 n q)) * c0 (ix2 e n))
        + d0 (ix2 (0 : Fin 1) e) * x0 (ix3 (0 : Fin 1) r e)
      = mix x B C D E := by
  unfold mix hidden
  rw [hD, hself]
  simp only [hrow, hB, hC]

end Cert.Mix

end
-- ==== Proof.Reference.lean ====
/-
  The reference's result is the function `Cert.Mix.mix` of its arguments.

  Read one operation at a time, the reference's last stage at (b, s, d) is the sum over n of
  tanh (∑ q, x (b, s, q) · B (n, q)) · C (d, n), plus the broadcast of D at (b, s, d) — which is D (d) — times x (b, s, d):
  the indices the two contractions and the two broadcasts read are those of `mix`, coordinate by coordinate.
-/
import proofs.«141873_j50929722196038_1_alg».proof.Proof.Gen.ReferenceIdeal.Read
import proofs.«141873_j50929722196038_1_alg».proof.Proof.Mix

noncomputable section

open scoped BigOperators

namespace Cert.ReferenceIdeal.RefValue

open Cert.ReferenceIdeal Cert.ReferenceIdeal.Read Idealize.ShloMosaic Idealize.ShloMosaic.ValueIdx

/-- Entry by entry, the reference's last stage is `mix`. -/
theorem stage_eq_mix (x : (⟨S4x4096x2048, .f32⟩ : BufTy).Contents (Elt Ideal)) (B : (⟨S1024x2048, .f32⟩ : BufTy).Contents (Elt Ideal))
    (C : (⟨S2048x1024, .f32⟩ : BufTy).Contents (Elt Ideal)) (D : (⟨S2048, .f32⟩ : BufTy).Contents (Elt Ideal)) :
    val_main_v6 (F := Ideal) x B C D = Cert.Mix.mix x B C D := by
  funext i
  -- the first contraction reads row (i 0, i 1) of x and row n of B
  have e1 : ∀ (n : Fin 1024) (q : Fin 2048), lidx_main_v0 (lidx_main_v2 i n) q = ix3 (i 0) (i 1) q := fun n q =>
    funext fun a => by match a with | ⟨0, _⟩ => rfl | ⟨1, _⟩ => rfl | ⟨2, _⟩ => rfl
  have e2 : ∀ (n : Fin 1024) (q : Fin 2048), ridx_main_v0 (lidx_main_v2 i n) q = ix2 n q := fun n q =>
    funext fun a => by match a with | ⟨0, _⟩ => rfl | ⟨1, _⟩ => rfl
  -- the second reads row (i 2) of C
  have e3 : ∀ n : Fin 1024, ridx_main_v2 i n = ix2 (i 2) n := fun n =>
    funext fun a => by match a with | ⟨0, _⟩ => rfl | ⟨1, _⟩ => rfl
  -- the two broadcasts read D at the last coordinate
  have e4 : idx_main_v3 (idx_main_v4 i) = ix1 (i 2) := funext fun a => by match a with | ⟨0, _⟩ => rfl
  rw [val_main_v6_apply, val_main_v2_apply, val_main_v5_apply, val_main_v4_apply, val_main_v3_apply, e4]
  unfold Cert.Mix.mix Cert.Mix.hidden
  simp only [val_main_v1_apply, val_main_v0_apply, Ideal.addf_def, Ideal.mulf_def, Ideal.hostUnary_tanh_def, e1, e2, e3]
  rfl

end Cert.ReferenceIdeal.RefValue

end
-- ==== Proof.LibDotRows.lean ====
/-
  A product of two arrays of rows, read at one entry.

  For dimension numbers that contract the left operand's axis 1 with the right operand's axis 1, keep the left
  operand's axis 0 and the right operand's axis 0, and batch nothing — the product  l · wᵀ  of an [n × K] array with a
  [c × K] array — the operand indices at result entry (r, v) and contraction position k are (r, k) and (v, k). So both
  the accumulate-into-zero `tpu.matmul` and the host's `dot_general` are, at the ideal values, the entry's plain sum
  ∑ q < K, l (r, q) · w (v, q)  over the shared axis: the same extended real whatever the number of rows of either
  operand. This identifies a product computed a block of the right operand's rows at a time with the whole product.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {n K c : Nat}

/-- Dimension numbers of a rows-by-rows product [n, K] × [c, K] → [n, c]: contract left axis 1 with right axis 1,
    result rows from the left operand's rows, result columns from the right operand's rows, no batch axis. -/
structure RowsRows (d : DotDims ⟨2, ![n, K]⟩ ⟨2, ![c, K]⟩ ⟨2, ![n, c]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![n, K]⟩ ⟨2, ![c, K]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsRows.rank_contr (h : RowsRows d) : d.contr.rank = 1 := by rw [d.rank_contr, h.lc]; rfl

/-- The contracted axis has the shared length K. -/
theorem RowsRows.size_contr (h : RowsRows d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsRows.lhs_row (h : RowsRows d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsRows.lhs_col (h : RowsRows d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the result's column: its axis 0 is kept, and comes after the left operand's one kept
    axis among the result's axes. -/
theorem RowsRows.rhs_row (h : RowsRows d) (j : (⟨2, ![n, c]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The right operand's column is the contraction position. -/
theorem RowsRows.rhs_col (h : RowsRows d) (j : (⟨2, ![n, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, l (r, q) · w (v, q). -/
theorem RowsRows.sum_eq (h : RowsRows d) (l : (⟨2, ![n, K]⟩ : Shape).Idx → EReal) (w : (⟨2, ![c, K]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 (j 1) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result column, q)
  have e2 : d.rhsIdx j ((contrEquiv1 d K h.rank_contr h.size_contr).symm q) = ix2 (j 1) q := by
    funext a
    match a with
    | ⟨0, _⟩ => exact Fin.ext (h.rhs_row j _)
    | ⟨1, _⟩ => exact Fin.ext ((h.rhs_col j _).trans hk)
  exact congrArg₂ (· * ·) (congrArg l e1) (congrArg w e2)

/-- `tpu.matmul` into the zero accumulator, at an entry, at the ideal values (operands of any float formats). -/
theorem RowsRows.matmul_zero_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    matmul (F := Ideal) d prec l w (constant ⟨2, ![n, c]⟩ .f32 0x00000000#32) j
      = ∑ q : Fin K, l (ix2 (j 0) q) * w (ix2 (j 1) q) :=
  (Ideal.matmul_constant_zero_apply d prec l w j).trans (h.sum_eq l w j)

/-- The host's `dot_general`, at an entry, at the ideal values. -/
theorem RowsRows.dotGeneral_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    Host.dotGeneral (F := Ideal) d prec l w j = ∑ q : Fin K, l (ix2 (j 0) q) * w (ix2 (j 1) q) :=
  (Ideal.dotGeneral_apply d prec .single l w j).trans (h.sum_eq l w j)

end Cert.Lib.DotRows

end
-- ==== Proof.Body.lean ====
/-
  What the kernel body stores, read at one entry.

  On a block x0 of 256 rows of x (carried with a unit leading axis), whole copies b0 of B and c0 of C, and D as a one-row
  matrix d0, the stored value at (u, r, e) is
      ∑ n, tanh (∑ q, x0 (0, r, q) · b0 (n, q)) · c0 (e, n)  +  d0 (0, e) · x0 (0, r, e):
  both products contract the last axis of both operands and start from a zero accumulator, so each is the plain sum over
  the shared axis; the narrowing of a product's operands to a shorter float format changes no value on the extended reals;
  dropping or adding the unit axis and repeating the one row of d0 down the 256 rows only rename indices.
-/
import proofs.«141873_j50929722196038_1_alg».proof.Proof.Gen.KernelIdeal.Skeleton
import proofs.«141873_j50929722196038_1_alg».proof.Proof.LibDotRows
import Idealize.ShloMosaic.Lib.ValueIdx
import Idealize.ShloMosaic.Lib.ValueLayout

noncomputable section

open scoped BigOperators

namespace Cert.KernelIdeal.Body

open Cert.KernelIdeal Cert.KernelIdeal.Gen Idealize.ShloMosaic Idealize.ShloMosaic.ValueIdx Cert.Lib.DotRows

/-- The first product is rows of the block by rows of B. -/
theorem rows_xB : RowsRows dot_S256x2048_S1024x2048_S256x1024_1_1_0_0_n_n := ⟨rfl, rfl, rfl, rfl, rfl, rfl⟩

/-- The second product is rows of the squashed projections by rows of C. -/
theorem rows_hC : RowsRows dot_S256x1024_S2048x1024_S256x2048_1_1_0_0_n_n := ⟨rfl, rfl, rfl, rfl, rfl, rfl⟩

/-- The squashed projection of the block's row r onto row n of b0. -/
theorem hidden_apply (x0 : Vec Ideal S1x256x2048 .f32) (b0 : Vec Ideal S1024x2048 .f32) (r : Fin 256) (n : Fin 1024) :
    tanh (matmul (F := Ideal) dot_S256x2048_S1024x2048_S256x1024_1_1_0_0_n_n none
        (truncf .bf16 (shapeCast S256x2048 x0 Facts₀.shapeCasts_S1x256x2048_S256x2048) Facts₀.bitsLt_bf16_f32)
        (truncf .bf16 b0 Facts₀.bitsLt_bf16_f32) (constant S256x1024 .f32 0x00000000#32)) (ix2 r n)
      = Ideal.tanh (∑ q : Fin 2048, x0 (ix3 (0 : Fin 1) r q) * b0 (ix2 n q)) := by
  show Ideal.tanh (matmul (F := Ideal) dot_S256x2048_S1024x2048_S256x1024_1_1_0_0_n_n none _ _ _ (ix2 r n)) = _
  rw [rows_xB.matmul_zero_apply]
  refine congrArg Ideal.tanh (Finset.sum_congr rfl fun q _ => ?_)
  rw [truncf_apply, truncf_apply]
  exact congrArg (· * b0 (ix2 n q)) (shapeCast_1ab_ab_apply x0 _ r q)

/-- The stored value at an entry. -/
theorem payload_apply (x0 : Vec Ideal S1x256x2048 .f32) (b0 : Vec Ideal S1024x2048 .f32) (c0 : Vec Ideal S2048x1024 .f32)
    (d0 : Vec Ideal S1x2048 .f32) (u : Fin 1) (r : Fin 256) (e : Fin 2048) :
    k0_pay1 (F := Ideal) x0 b0 c0 d0 (ix3 u r e)
      = (∑ n : Fin 1024, Ideal.tanh (∑ q : Fin 2048, x0 (ix3 (0 : Fin 1) r q) * b0 (ix2 n q)) * c0 (ix2 e n))
          + d0 (ix2 (0 : Fin 1) e) * x0 (ix3 (0 : Fin 1) r e) := by
  unfold k0_pay1
  refine (shapeCast_ab_1ab_apply _ _ u r e).trans ?_
  rw [addf_apply, mulf_apply, rows_hC.matmul_zero_apply, broadcastTo_1b_ab_apply, shapeCast_1ab_ab_apply]
  refine congrArg₂ (· + ·) (Finset.sum_congr rfl fun n _ => ?_) (congrArg (· * x0 (ix3 (0 : Fin 1) r e)) ?_)
  · rw [truncf_apply, truncf_apply]
    exact congrArg (· * c0 (ix2 e n)) (hidden_apply x0 b0 r n)
  · exact shapeCast_apply _ _ _ _ rfl

end Cert.KernelIdeal.Body

end
-- ==== Proof.Whole.lean ====
/-
  From blocks to the whole array.

  The grid has 4 × 16 points; point (b, g) fetches rows 256·g … 256·g + 255 of x (b, ·, ·) and whole copies of B, C and
  of D's one-row form, and writes back the same rows of the result. What the body leaves in a block is the expression
  of `Body.payload_apply` over what it fetched; entry (u, r, e) of the block fetched at (b, g) is entry (b, 256·g + r, e)
  of the array, the copies of B and C are B and C, and the one-row form of D at (0, e) is D (e). So each point writes
  back a block of `Cert.Mix.mix` of the arguments, and the 64 blocks tile the array: it ends holding `mix`.
-/
import proofs.«141873_j50929722196038_1_alg».proof.Proof.Gen.KernelIdeal.Value
import proofs.«141873_j50929722196038_1_alg».proof.Proof.Mix
import proofs.«141873_j50929722196038_1_alg».proof.Proof.Body
import Idealize.ShloMosaic.Lib.StableHlo.Run
import Idealize.ShloMosaic.Lib.ValueLayout

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The result array on device c: `mix` of the four arguments as launched. -/
abbrev result (c : Dev nD) : S4x4096x2048.Idx → EReal :=
  Cert.Mix.mix (m ((c : Thread nD τ).loc main_arg0)) (m ((c : Thread nD τ).loc main_arg1))
    (m ((c : Thread nD τ).loc main_arg2)) (m ((c : Thread nD τ).loc main_arg3))

/-- What the region finds in D's one-row form: D with a unit axis in front. -/
theorem drow_eq (c : Dev nD) :
    (V m c main_v0 : S1x2048.Idx → EReal)
      = shapeCast S1x2048 (m ((c : Thread nD τ).loc main_arg3)) Facts₀.shapeCasts_S2048_S1x2048 := by
  dsimp only [V, hostOps0]; after_results; rfl

/-- The block indices over the grid: x's window moves with the result's, over the first two axes only; the other three
    windows stay at the origin. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 3) = 0 :=
  (by decide +kernel : ∀ t : Fin grid0.N, _)

/-- Every (batch, group of 256 rows) is some point's block. -/
theorem idx_onto : ∀ (q0 : Fin 4) (q1 : Fin 16), ∃ t : Fin cfg0.N, win0_4.index t = ![q0.val, q1.val, 0] :=
  (by decide +kernel : ∀ (q0 : Fin 4) (q1 : Fin 16), ∃ t : Fin grid0.N, win0_4.index t = ![q0.val, q1.val, 0])

/-- What point t writes back is block t of `mix` of the arguments. -/
theorem flushed_eq (c : Dev nD) (t : Fin cfg0.N) :
    (dats m 0 c).flushed 4 t = ((cfg0.win 4).blk t).view.read (Elt Ideal) (result m c) := by
  rw [flushed4]
  unfold out0_4
  rw [View.canon_unit_zero zeros3]
  simp only [View.ld_unit_zero (S := S1x256x2048) zeros3, View.ld_unit_zero (S := S1024x2048) zeros2,
    View.ld_unit_zero (S := S2048x1024) zeros2, View.ld_unit_zero (S := S1x2048) zeros2]
  funext j
  obtain ⟨u, r, e, rfl⟩ : ∃ (u : Fin 1) (r : Fin 256) (e : Fin 2048), j = ix3 u r e :=
    ⟨j 0, j 1, j 2, eq_ix3 (n0 := 1) (n1 := 256) (n2 := 2048) j⟩
  show k0_pay1 (F := Ideal) (iblk m c 0 t) (iblk m c 1 t) (iblk m c 2 t) (iblk m c 3 t) (ix3 u r e)
      = result m c (((cfg0.win 4).blk t).view.emb (ix3 u r e))
  refine (Body.payload_apply (iblk m c 0 t) (iblk m c 1 t) (iblk m c 2 t) (iblk m c 3 t) u r e).trans ?_
  obtain ⟨h00, h01, h02, h10, h11, h20, h21, h30, h31, h42⟩ := idx_facts t
  have hu : u.val = 0 := by omega
  refine Cert.Mix.mix_of_block _ _ _ _ (iblk m c 0 t) (iblk m c 1 t) (iblk m c 2 t) (iblk m c 3 t)
    (((cfg0.win 4).blk t).view.emb (ix3 u r e)) r e ?_ ?_ ?_ ?_ ?_
  · -- row r of the fetched block is row (b, 256·g + r) of x
    intro q
    show V m c main_arg0 (((cfg0.win 0).blk t).view.emb (ix3 (0 : Fin 1) r q)) = _
    rw [V_main_arg0]
    refine congrArg _ (funext fun a => Fin.ext ?_)
    match a with
    | ⟨0, _⟩ => show win0_0.index t (0 : Fin 3) * 1 + 1 * 0 = win0_4.index t (0 : Fin 3) * 1 + 1 * u.val; omega
    | ⟨1, _⟩ => show win0_0.index t (1 : Fin 3) * 256 + 1 * r.val = win0_4.index t (1 : Fin 3) * 256 + 1 * r.val; omega
    | ⟨2, _⟩ => show win0_0.index t (2 : Fin 3) * 2048 + 1 * q.val = q.val; omega
  · -- the copy of B is B
    intro n q
    show V m c main_arg1 (((cfg0.win 1).blk t).view.emb (ix2 n q)) = _
    rw [V_main_arg1]
    refine congrArg _ (funext fun a => Fin.ext ?_)
    match a with
    | ⟨0, _⟩ => show win0_1.index t (0 : Fin 2) * 1024 + 1 * n.val = n.val; omega
    | ⟨1, _⟩ => show win0_1.index t (1 : Fin 2) * 2048 + 1 * q.val = q.val; omega
  · -- the copy of C is C, and the block's column e is the array's column e
    intro n
    show V m c main_arg2 (((cfg0.win 2).blk t).view.emb (ix2 e n)) = _
    rw [V_main_arg2]
    refine congrArg _ (funext fun a => Fin.ext ?_)
    match a with
    | ⟨0, _⟩ => show win0_2.index t (0 : Fin 2) * 2048 + 1 * e.val = win0_4.index t (2 : Fin 3) * 2048 + 1 * e.val; omega
    | ⟨1, _⟩ => show win0_2.index t (1 : Fin 2) * 1024 + 1 * n.val = n.val; omega
  · -- the one-row form of D at (0, e) is D (e)
    show V m c main_v0 (((cfg0.win 3).blk t).view.emb (ix2 (0 : Fin 1) e)) = _
    have hemb : ((cfg0.win 3).blk t).view.emb (ix2 (0 : Fin 1) e)
        = ix2 (0 : Fin 1) ((((cfg0.win 4).blk t).view.emb (ix3 u r e)) 2) := by
      funext a; apply Fin.ext
      match a with
      | ⟨0, _⟩ => show win0_3.index t (0 : Fin 2) * 1 + 1 * 0 = 0; omega
      | ⟨1, _⟩ => show win0_3.index t (1 : Fin 2) * 2048 + 1 * e.val = win0_4.index t (2 : Fin 3) * 2048 + 1 * e.val; omega
    rw [hemb, drow_eq]
    exact shapeCast_a_1a_apply _ _ _ _
  · -- the block's own entry is the array's
    show V m c main_arg0 (((cfg0.win 0).blk t).view.emb (ix3 (0 : Fin 1) r e)) = _
    rw [V_main_arg0]
    refine congrArg _ (funext fun a => Fin.ext ?_)
    match a with
    | ⟨0, _⟩ => show win0_0.index t (0 : Fin 3) * 1 + 1 * 0 = win0_4.index t (0 : Fin 3) * 1 + 1 * u.val; omega
    | ⟨1, _⟩ => show win0_0.index t (1 : Fin 3) * 256 + 1 * r.val = win0_4.index t (1 : Fin 3) * 256 + 1 * r.val; omega
    | ⟨2, _⟩ => show win0_0.index t (2 : Fin 3) * 2048 + 1 * e.val = win0_4.index t (2 : Fin 3) * 2048 + 1 * e.val; omega

/-- An entry of the array is in point t's block iff each coordinate is in the block's range on its axis. -/
theorem mem_blk (t : Fin cfg0.N) (i : S4x4096x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v1).slice (win0_4.rect t)).set ↔ _
  rw [View.set_slice_whole, Rect.mem_set_unit]
  exact Iff.rfl

/-- The blocks tile the array: entry (b, s, d) is in the block of point (b, s / 256). -/
theorem covered (i : S4x4096x2048.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 2048 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- After the run the result array holds `mix` of the arguments. -/
theorem final (c : Dev nD) : (dats m 0 c).arrAt 4 cfg0.N = result m c :=
  (dats m 0 c).arrAt_eq_of_cover 4 (result m c) (fun t _ => flushed_eq m c t) covered

/-- The run, with the result array named. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.lean ====
/-
  The kernel and its reference compute one function.

  With x : [4, 4096, 2048], B : [1024, 2048], C : [2048, 1024], D : [2048], both programs end with

      out (b, s, d) = ∑ n < 1024, tanh (∑ q < 2048, x (b, s, q) · B (n, q)) · C (d, n)  +  D (d) · x (b, s, d)

  on the extended reals (`Cert.Mix.mix`). The kernel computes it 256 rows at a time over a 4 × 16 grid, each of its two
  products an accumulation into zero over the last axis of both operands, with D carried as a one-row matrix; the reference
  computes it as two contractions over the whole arrays, with D broadcast to the full shape. A contraction is the plain
  sum over the shared axis on either side, narrowing a product's operands to a shorter float format changes no extended
  real, and tanh is one function on both sides, so the two results agree term by term: no law of arithmetic beyond
  reindexing is used, and the finiteness of the inputs is never needed.

  The kernel's side: `Body.payload_apply` (the stored block at an entry), `Whole.flushed_eq` and `Whole.covered` (each
  grid point writes back a block of `mix`, and the blocks tile the array), `Whole.run`. The reference's side:
  `RefValue.stage_eq_mix`. The idealization rewrote no operation, so there is nothing to preserve.
-/
import proofs.«141873_j50929722196038_1_alg».proof.Defs
import proofs.«141873_j50929722196038_1_alg».proof.Proof.Gen.Kernel
import proofs.«141873_j50929722196038_1_alg».proof.Proof.Gen.Kernel.Skeleton
import proofs.«141873_j50929722196038_1_alg».proof.Proof.Gen.Kernel.Launch
import proofs.«141873_j50929722196038_1_alg».proof.Proof.Gen.Kernel.Points
import proofs.«141873_j50929722196038_1_alg».proof.Proof.Gen.Kernel.Frame
import proofs.«141873_j50929722196038_1_alg».proof.Proof.Gen.KernelIdeal
import proofs.«141873_j50929722196038_1_alg».proof.Proof.Gen.KernelIdeal.Skeleton
import proofs.«141873_j50929722196038_1_alg».proof.Proof.Gen.KernelIdeal.Launch
import proofs.«141873_j50929722196038_1_alg».proof.Proof.Gen.KernelIdeal.Points
import proofs.«141873_j50929722196038_1_alg».proof.Proof.Gen.KernelIdeal.Frame
import proofs.«141873_j50929722196038_1_alg».proof.Proof.Gen.ReferenceIdeal
import proofs.«141873_j50929722196038_1_alg».proof.Proof.Gen.Pre_finite_inputs
import proofs.«141873_j50929722196038_1_alg».proof.Proof.Gen.KernelIdeal.Value
import proofs.«141873_j50929722196038_1_alg».proof.Proof.Gen.ReferenceIdeal.Run
import proofs.«141873_j50929722196038_1_alg».proof.Proof.Gen.ReferenceIdeal.Read
import proofs.«141873_j50929722196038_1_alg».proof.Proof.Mix
import proofs.«141873_j50929722196038_1_alg».proof.Proof.Reference
import proofs.«141873_j50929722196038_1_alg».proof.Proof.Body
import proofs.«141873_j50929722196038_1_alg».proof.Proof.Whole
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, B, C and D, the kernel's result array ends at `mix` of them (the blocks of the grid
    tile it) and the reference's last stage is `mix` of them too. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.stage_eq_mix,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
